-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x512x512 : Shape := ⟨4, ![8, 64, 512, 512]⟩
abbrev S_ : Shape := ⟨0, ![]⟩

class Facts : Prop where
  bcast_S_S8x64x512x512 : S_.BroadcastsInDim S8x64x512x512 (![] : Fin 0 → Fin S8x64x512x512.rank)
  reducesTo_S8x64x512x512_S_d0_1_2_3 : S8x64x512x512.ReducesTo [0, 1, 2, 3] S_
  h_S_ : 0 < S_.numel

variable [Facts]

def fn {F : FTy → Type} [FloatOps F] (main_arg0 : FVec F S8x64x512x512 .f32) : IVec S_ 1 :=
  let main_v0 : FVec F S8x64x512x512 .f32 := Host.absf main_arg0
  let main_cst : FVec F S_ .f32 := constant S_ .f32 0x7F800000#32
  let main_v1 : FVec F S8x64x512x512 .f32 := broadcastInDim S8x64x512x512 ![] bcast_S_S8x64x512x512 main_cst
  let main_v2 : IVec S8x64x512x512 1 := cmpf .olt main_v0 main_v1
  let main_c : IVec S_ 1 := constantI S_ 1 1#1
  let main_v3 : IVec S_ 1 := (fun x v => Host.reduce IntOp.andi x v reducesTo_S8x64x512x512_S_d0_1_2_3 h_S_) main_v2 main_c
  main_v3
-- ==== Kernel.lean ====
abbrev S8x64x512x512 : Shape := ⟨4, ![8, 64, 512, 512]⟩
abbrev S512x512x512 : Shape := ⟨3, ![512, 512, 512]⟩
abbrev S4x512x512 : Shape := ⟨3, ![4, 512, 512]⟩
abbrev S4x1x512 : Shape := ⟨3, ![4, 1, 512]⟩
abbrev S4x514x512 : Shape := ⟨3, ![4, 514, 512]⟩
abbrev S4x514x1 : Shape := ⟨3, ![4, 514, 1]⟩
abbrev S4x514x514 : Shape := ⟨3, ![4, 514, 514]⟩

abbrev nBuf : Space → Nat
  | .hbm => 4
  | .vmem => 4
  | .smem => 0
  | _ => 0

abbrev bufTy : (tb : Table) → Fin (tcTables nBuf tb) → BufTy
  | .hbm, ⟨0, _⟩ => ⟨S8x64x512x512, .f32⟩
  | .hbm, ⟨1, _⟩ => ⟨S512x512x512, .f32⟩
  | .hbm, ⟨2, _⟩ => ⟨S512x512x512, .f32⟩
  | .hbm, ⟨3, _⟩ => ⟨S8x64x512x512, .f32⟩
  | .local _ .vmem, ⟨0, _⟩ => ⟨S4x512x512, .f32⟩
  | .local _ .vmem, ⟨1, _⟩ => ⟨S4x512x512, .f32⟩
  | .local _ .vmem, ⟨2, _⟩ => ⟨S4x512x512, .f32⟩
  | .local _ .vmem, ⟨3, _⟩ => ⟨S4x512x512, .f32⟩
  | _, _ => ⟨S8x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x64x512x512_S512x512x512 : S8x64x512x512.ShapeCasts S512x512x512
  inb_S4x512x512_S4x512x512_0_0_0 : ∀ a, (![0, 0, 0] : Fin 3 → Nat) a + S4x512x512.size a ≤ S4x512x512.size a
  h_S4x512x512 : 0 < S4x512x512.numel
  shapeCasts_S4x512x512_S4x512x512 : S4x512x512.ShapeCasts S4x512x512
  concatenates_S4x1x512_S4x512x512_S4x1x512_S4x514x512_d1 : Shape.Concatenates [S4x1x512, S4x512x512, S4x1x512] S4x514x512 1
  concatenates_S4x514x1_S4x514x512_S4x514x1_S4x514x514_d2 : Shape.Concatenates [S4x514x1, S4x514x512, S4x514x1] S4x514x514 2
  slices_S4x514x514_o0_0_0_S4x512x512 : S4x514x514.Slices ![0, 0, 0] S4x512x512
  slices_S4x514x514_o0_0_1_S4x512x512 : S4x514x514.Slices ![0, 0, 1] S4x512x512
  slices_S4x514x514_o0_0_2_S4x512x512 : S4x514x514.Slices ![0, 0, 2] S4x512x512
  slices_S4x514x514_o0_1_0_S4x512x512 : S4x514x514.Slices ![0, 1, 0] S4x512x512
  slices_S4x514x514_o0_1_1_S4x512x512 : S4x514x514.Slices ![0, 1, 1] S4x512x512
  slices_S4x514x514_o0_1_2_S4x512x512 : S4x514x514.Slices ![0, 1, 2] S4x512x512
  slices_S4x514x514_o0_2_0_S4x512x512 : S4x514x514.Slices ![0, 2, 0] S4x512x512
  slices_S4x514x514_o0_2_1_S4x512x512 : S4x514x514.Slices ![0, 2, 1] S4x512x512
  slices_S4x514x514_o0_2_2_S4x512x512 : S4x514x514.Slices ![0, 2, 2] S4x512x512
  shapeCasts_S512x512x512_S8x64x512x512 : S512x512x512.ShapeCasts S8x64x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S512x512x512.size a
  hwx0_0 : ∀ i : grid0.Coords, EltTy.bits .f32 = 32 ∨ (Rect.block (s := S512x512x512) S4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S512x512x512.size a
  hwx0_1 : ∀ i : grid0.Coords, EltTy.bits .f32 = 32 ∨ (Rect.block (s := S512x512x512) S4x512x512.size (cc0_transform_1 i) (hinb0_1 i)).WholeWords (EltTy.packing .f32)

variable [Facts₀]

abbrev win0_0 : Pipeline.Window sig grid0 :=
  Pipeline.Window.ofSpec (Memref.whole main_v0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x64x512x512 : Shape := ⟨4, ![8, 64, 512, 512]⟩
abbrev S_ : Shape := ⟨0, ![]⟩
abbrev S8x64x514x514 : Shape := ⟨4, ![8, 64, 514, 514]⟩

abbrev nBuf : Space → Nat
  | .hbm => 6
  | .vmem => 0
  | .smem => 0
  | _ => 0

abbrev bufTy : (tb : Table) → Fin (tcTables nBuf tb) → BufTy
  | .hbm, ⟨0, _⟩ => ⟨S8x64x512x512, .f32⟩
  | .hbm, ⟨1, _⟩ => ⟨S_, .f32⟩
  | .hbm, ⟨2, _⟩ => ⟨S_, .f32⟩
  | .hbm, ⟨3, _⟩ => ⟨S8x64x514x514, .f32⟩
  | .hbm, ⟨4, _⟩ => ⟨S_, .f32⟩
  | .hbm, ⟨5, _⟩ => ⟨S8x64x512x512, .f32⟩
  | _, _ => ⟨S8x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  pads_S8x64x512x512_S8x64x514x514_000_000_110_110 : S8x64x512x512.Pads (![0, 0, 1, 1] : Fin 4 → Nat) ![0, 0, 1, 1] ![0, 0, 0, 0] S8x64x514x514
  h_S_ : 0 < S_.numel
  reduceWindows_S8x64x514x514_S8x64x512x512_w1s1p0_0_w1s1p0_0_w3s1p0_0_w3s1p0_0 : S8x64x514x514.ReduceWindows (![1, 1, 3, 3] : Fin 4 → Nat) ![1, 1, 1, 1] ![0, 0, 0, 0] ![0, 0, 0, 0] S8x64x512x512

variable [Facts₀]

class Facts : Prop extends Facts₀ where

variable [Facts]
-- ==== Proof.Plane.lean ====
/-
  A 512 × 512 image with a border of one entry of a fixed value on every side, read at NATURAL coordinates
  of the 514 × 514 bordered plane, and the fold of a binary operation over a 3 × 3 window of a plane.

  Both programs of this certificate compute, for every image and every position (r, c), the minimum over the
  nine entries (r + dr, c + dc), dr, dc ∈ {0, 1, 2}, of the image bordered by zeros: the kernel as a chain of
  eight minima over nine shifted copies of the bordered block, the reference as a window reduction that starts
  from +∞. `fold9` is the kernel's chain, `fold9From` the reference's; they agree as soon as the starting
  value is absorbed by the first entry.
-/

namespace Cert.MinPool

variable {α : Type}

/-- The bordered plane of an image `X`: entry (r, c) of the 514 × 514 plane is `X (r - 1) (c - 1)` when both
    coordinates lie in 1 … 512, and the border value `z` otherwise. -/
def bordered (z : α) (X : Fin 512 → Fin 512 → α) (r c : Nat) : α :=
  if h : (1 ≤ r ∧ r ≤ 512) ∧ (1 ≤ c ∧ c ≤ 512) then X ⟨r - 1, by omega⟩ ⟨c - 1, by omega⟩ else z

/-- The bordered plane depends on the image only through its entries. -/
theorem bordered_congr (z : α) {X Y : Fin 512 → Fin 512 → α} (h : ∀ r c, X r c = Y r c) (r c : Nat) :
    bordered z X r c = bordered z Y r c := by
  unfold bordered
  split
  · exact h _ _
  · rfl

/-- `f` folded from the left over the 3 × 3 window of the plane `P` whose top left corner is (r, c), rows first:
    the window's first entry is the starting value. -/
def fold9 (f : α → α → α) (P : Nat → Nat → α) (r c : Nat) : α :=
  f (f (f (f (f (f (f (f (P r c) (P r (c + 1))) (P r (c + 2))) (P (r + 1) c)) (P (r + 1) (c + 1))) (P (r + 1) (c + 2)))
    (P (r + 2) c)) (P (r + 2) (c + 1))) (P (r + 2) (c + 2))

/-- The same fold from a starting value `v` of its own. -/
def fold9From (f : α → α → α) (v : α) (P : Nat → Nat → α) (r c : Nat) : α :=
  f (f (f (f (f (f (f (f (f v (P r c)) (P r (c + 1))) (P r (c + 2))) (P (r + 1) c)) (P (r + 1) (c + 1))) (P (r + 1) (c + 2)))
    (P (r + 2) c)) (P (r + 2) (c + 1))) (P (r + 2) (c + 2))

/-- A starting value the first entry absorbs does not show. -/
theorem fold9From_eq (f : α → α → α) (v : α) (P : Nat → Nat → α) (r c : Nat) (h : f v (P r c) = P r c) :
    fold9From f v P r c = fold9 f P r c := by
  unfold fold9From fold9
  rw [h]

/-- The fold depends on the plane only through the nine entries of the window. -/
theorem fold9_congr (f : α → α → α) {P Q : Nat → Nat → α} (r c : Nat) (h : ∀ dr dc, dr ≤ 2 → dc ≤ 2 → P (r + dr) (c + dc) = Q (r + dr) (c + dc)) :
    fold9 f P r c = fold9 f Q r c := by
  unfold fold9
  have h00 := h 0 0 (by omega) (by omega)
  have h01 := h 0 1 (by omega) (by omega)
  have h02 := h 0 2 (by omega) (by omega)
  have h10 := h 1 0 (by omega) (by omega)
  have h11 := h 1 1 (by omega) (by omega)
  have h12 := h 1 2 (by omega) (by omega)
  have h20 := h 2 0 (by omega) (by omega)
  have h21 := h 2 1 (by omega) (by omega)
  have h22 := h 2 2 (by omega) (by omega)
  simp only [Nat.add_zero] at h00 h01 h02 h10 h20
  rw [h00, h01, h02, h10, h11, h12, h20, h21, h22]

end Cert.MinPool
-- ==== Proof.BlockPad.lean ====
/-
  The kernel body's layout operations read at an index.

  The body borders its [4, 512, 512] block with zeros in two steps — a row of the border value above and below
  every image (a concatenation of three pieces along axis 1), then a column of it left and right (three pieces
  along axis 2) — and takes nine unit-stride [4, 512, 512] slices of the [4, 514, 514] result at the offsets
  (0, dr, dc). Read at (g, r, c): the bordered array is the bordered plane of image g of the block, and the slice
  at (0, dr, dc) reads it at (g, r + dr, c + dc).
-/
import Idealize.ShloMosaic.Lib.Pipeline.Value
import Idealize.ShloMosaic.Lib.ValueIdx
import proofs.«126444_j77695958384786_1_alg».proof.Proof.Plane

namespace Cert.MinPool

open Idealize.ShloMosaic Idealize.ShloMosaic.ValueIdx

variable {α : Type}

/-- The block, a border row, the block with its rows bordered, a border column, the bordered block. -/
abbrev B3 : Shape := ⟨3, ![4, 512, 512]⟩
abbrev Row1 : Shape := ⟨3, ![4, 1, 512]⟩
abbrev B3h : Shape := ⟨3, ![4, 514, 512]⟩
abbrev Col1 : Shape := ⟨3, ![4, 514, 1]⟩
abbrev B3p : Shape := ⟨3, ![4, 514, 514]⟩

/-- Border rows: row 0 and row 513 of every image hold the border value (the first and the third piece, one row
    each), and row r in 1 … 512 is row r - 1 of the block (the second piece, which starts after one row). -/
theorem rows_apply (z : α) (x : B3.Idx → α) (h : Shape.Concatenates [Row1, B3, Row1] B3h 1)
    (g : Fin 4) (r : Fin 514) (c : Fin 512) :
    concatenate B3h 1 [⟨Row1, broadcast Row1 z⟩, ⟨B3, x⟩, ⟨Row1, broadcast Row1 z⟩] h (ix3 g r c)
      = if hr : 1 ≤ r.val ∧ r.val ≤ 512 then x (ix3 g ⟨r.val - 1, by omega⟩ c) else z := by
  have hr514 := r.isLt
  by_cases h0 : r.val = 0
  · rw [dif_neg (by omega)]
    exact concatenate_apply_piece (t := B3h) (1 : Fin 3) [⟨Row1, broadcast Row1 z⟩, ⟨B3, x⟩, ⟨Row1, broadcast Row1 z⟩] h (ix3 g r c) 0 (by show 0 < 3; omega) Row1 (broadcast Row1 z) rfl rfl 0 rfl
      (ix3 g (0 : Fin 1) c)
      (by intro b hb; match b, hb with | ⟨0, _⟩, _ => rfl | ⟨1, _⟩, hb => exact absurd rfl hb | ⟨2, _⟩, _ => rfl)
      (by show 0 + 0 = r.val; omega)
  · by_cases h1 : r.val ≤ 512
    · rw [dif_pos ⟨by omega, h1⟩]
      exact concatenate_apply_piece (t := B3h) (1 : Fin 3) [⟨Row1, broadcast Row1 z⟩, ⟨B3, x⟩, ⟨Row1, broadcast Row1 z⟩] h (ix3 g r c) 1 (by show 1 < 3; omega) B3 x rfl rfl 1 rfl
        (ix3 g ⟨r.val - 1, by omega⟩ c)
        (by intro b hb; match b, hb with | ⟨0, _⟩, _ => rfl | ⟨1, _⟩, hb => exact absurd rfl hb | ⟨2, _⟩, _ => rfl)
        (by show 1 + (r.val - 1) = r.val; omega)
    · rw [dif_neg (by omega)]
      exact concatenate_apply_piece (t := B3h) (1 : Fin 3) [⟨Row1, broadcast Row1 z⟩, ⟨B3, x⟩, ⟨Row1, broadcast Row1 z⟩] h (ix3 g r c) 2 (by show 2 < 3; omega) Row1 (broadcast Row1 z) rfl rfl 513 rfl
        (ix3 g (0 : Fin 1) c)
        (by intro b hb; match b, hb with | ⟨0, _⟩, _ => rfl | ⟨1, _⟩, hb => exact absurd rfl hb | ⟨2, _⟩, _ => rfl)
        (by show 513 + 0 = r.val; omega)

/-- Border columns, the same along axis 2. -/
theorem cols_apply (z : α) (y : B3h.Idx → α) (h : Shape.Concatenates [Col1, B3h, Col1] B3p 2)
    (g : Fin 4) (r : Fin 514) (c : Fin 514) :
    concatenate B3p 2 [⟨Col1, broadcast Col1 z⟩, ⟨B3h, y⟩, ⟨Col1, broadcast Col1 z⟩] h (ix3 g r c)
      = if hc : 1 ≤ c.val ∧ c.val ≤ 512 then y (ix3 g r ⟨c.val - 1, by omega⟩) else z := by
  have hc514 := c.isLt
  by_cases h0 : c.val = 0
  · rw [dif_neg (by omega)]
    exact concatenate_apply_piece (t := B3p) (2 : Fin 3) [⟨Col1, broadcast Col1 z⟩, ⟨B3h, y⟩, ⟨Col1, broadcast Col1 z⟩] h (ix3 g r c) 0 (by show 0 < 3; omega) Col1 (broadcast Col1 z) rfl rfl 0 rfl
      (ix3 g r (0 : Fin 1))
      (by intro b hb; match b, hb with | ⟨0, _⟩, _ => rfl | ⟨1, _⟩, _ => rfl | ⟨2, _⟩, hb => exact absurd rfl hb)
      (by show 0 + 0 = c.val; omega)
  · by_cases h1 : c.val ≤ 512
    · rw [dif_pos ⟨by omega, h1⟩]
      exact concatenate_apply_piece (t := B3p) (2 : Fin 3) [⟨Col1, broadcast Col1 z⟩, ⟨B3h, y⟩, ⟨Col1, broadcast Col1 z⟩] h (ix3 g r c) 1 (by show 1 < 3; omega) B3h y rfl rfl 1 rfl
        (ix3 g r ⟨c.val - 1, by omega⟩)
        (by intro b hb; match b, hb with | ⟨0, _⟩, _ => rfl | ⟨1, _⟩, _ => rfl | ⟨2, _⟩, hb => exact absurd rfl hb)
        (by show 1 + (c.val - 1) = c.val; omega)
    · rw [dif_neg (by omega)]
      exact concatenate_apply_piece (t := B3p) (2 : Fin 3) [⟨Col1, broadcast Col1 z⟩, ⟨B3h, y⟩, ⟨Col1, broadcast Col1 z⟩] h (ix3 g r c) 2 (by show 2 < 3; omega) Col1 (broadcast Col1 z) rfl rfl 513 rfl
        (ix3 g r (0 : Fin 1))
        (by intro b hb; match b, hb with | ⟨0, _⟩, _ => rfl | ⟨1, _⟩, _ => rfl | ⟨2, _⟩, hb => exact absurd rfl hb)
        (by show 513 + 0 = c.val; omega)

/-- The block bordered on both axes, at (g, r, c), is the bordered plane of image g at (r, c). -/
theorem bordered_block (z : α) (x : B3.Idx → α) (h1 : Shape.Concatenates [Row1, B3, Row1] B3h 1)
    (h2 : Shape.Concatenates [Col1, B3h, Col1] B3p 2) (g : Fin 4) (r c : Fin 514) :
    concatenate B3p 2 [⟨Col1, broadcast Col1 z⟩,
        ⟨B3h, concatenate B3h 1 [⟨Row1, broadcast Row1 z⟩, ⟨B3, x⟩, ⟨Row1, broadcast Row1 z⟩] h1⟩,
        ⟨Col1, broadcast Col1 z⟩] h2 (ix3 g r c)
      = bordered z (fun r' c' => x (ix3 g r' c')) r.val c.val := by
  rw [cols_apply]
  unfold bordered
  split
  · next hc =>
    rw [rows_apply]
    split
    · next hr => rw [dif_pos ⟨hr, hc⟩]
    · next hr => rw [dif_neg (fun hh => hr hh.1)]
  · next hc => rw [dif_neg (fun hh => hc hh.2)]

/-- The unit-stride slice at the offsets (0, dr, dc), at (g, r, c), reads its operand at (g, r + dr, c + dc). -/
theorem slice_apply (dr dc : Nat) (hdr : dr ≤ 2) (hdc : dc ≤ 2) (v : B3p.Idx → α) (h : B3p.Slices ![0, dr, dc] B3)
    (g : Fin 4) (r c : Fin 512) :
    extractStridedSlice B3 ![0, dr, dc] v h (ix3 g r c)
      = v (ix3 g ⟨r.val + dr, by have := r.isLt; omega⟩ ⟨c.val + dc, by have := c.isLt; omega⟩) :=
  extractStridedSlice_apply _ v h _ _ (fun a => match a with
    | ⟨0, _⟩ => (Nat.zero_add _).symm
    | ⟨1, _⟩ => Nat.add_comm _ _
    | ⟨2, _⟩ => Nat.add_comm _ _)

end Cert.MinPool
-- ==== Proof.Payload.lean ====
/-
  The value the kernel body stores, read at an index.

  The body loads its [4, 512, 512] block, borders every image of it with zeros, and stores the elementwise minimum
  of the nine [4, 512, 512] slices of the bordered block at the offsets (0, dr, dc), dr, dc ∈ {0, 1, 2}, as a chain
  of eight minima. At (g, r, c) that is the fold of `min` over the 3 × 3 window at (r, c) of the bordered plane
  of image g (`pay_apply`). When the block is a band of four consecutive images of a [512, 512, 512] array, it is
  the array's pooled value at the band's image (`pay_block`).
-/
import proofs.«126444_j77695958384786_1_alg».proof.Proof.Gen.KernelIdeal.Skeleton
import proofs.«126444_j77695958384786_1_alg».proof.Proof.BlockPad
import Idealize.ShloMosaic.PureOps.Ideal
import Idealize.ShloMosaic.Lib.ValueIdx
import Idealize.ShloMosaic.Lib.Pipeline.Value

noncomputable section

namespace Cert.KernelIdeal.MinValue

open Cert.KernelIdeal Cert.KernelIdeal.Gen Cert.MinPool
open Idealize.ShloMosaic Idealize.ShloMosaic.ValueIdx

/-- The border value: the extended real the all-zero word denotes. Both programs border with this word, so
    its value never matters. -/
abbrev zeroWord : EReal := Ideal.ofBits .f32 0x00000000#32

/-- The pooled array: entry (n, r, c) is the minimum over the 3 × 3 window at (r, c) of the bordered plane of
    image n. -/
def pooled3 (Y : S512x512x512.Idx → EReal) : S512x512x512.Idx → EReal :=
  fun i => fold9 min (bordered zeroWord (fun r c => Y (ix3 (i 0) r c))) (i 1).val (i 2).val

/-- The payload at (g, r, c): each of the nine slices reads the bordered block at (g, r + dr, c + dc), which is
    the bordered plane of image g there, and the chain of minima is the fold in the window's row-major order. -/
theorem pay_apply (x : S4x512x512.Idx → EReal) (g : Fin 4) (r c : Fin 512) :
    k0_pay1 (F := Ideal) x (ix3 g r c)
      = fold9 min (bordered zeroWord (fun r' c' => x (ix3 g r' c'))) r.val c.val := by
  unfold k0_pay1
  simp only [minimumf_apply]
  rw [slice_apply 0 0 (by omega) (by omega), slice_apply 0 1 (by omega) (by omega), slice_apply 0 2 (by omega) (by omega),
    slice_apply 1 0 (by omega) (by omega), slice_apply 1 1 (by omega) (by omega), slice_apply 1 2 (by omega) (by omega),
    slice_apply 2 0 (by omega) (by omega), slice_apply 2 1 (by omega) (by omega), slice_apply 2 2 (by omega) (by omega)]
  simp only [bordered_block, shapeCast_self, Nat.add_zero]
  rfl

/-- A block that is a band of an array: `e` places block entry (g, r, c) at (4 n₀ + g, r, c), and the block
    holds the array's entries there. Then the payload at `j` is the pooled array at `e j`: the bordered plane of
    image g of the block is the bordered plane of image 4 n₀ + g of the array. -/
theorem pay_block (Y : S512x512x512.Idx → EReal) (x : S4x512x512.Idx → EReal)
    (e : S4x512x512.Idx → S512x512x512.Idx) (n0 : Nat)
    (he : ∀ y, (e y 0).val = n0 * 4 + 1 * (y 0).val ∧ (e y 1).val = (y 1).val ∧ (e y 2).val = (y 2).val)
    (hx : ∀ y, x y = Y (e y)) (j : S4x512x512.Idx) :
    k0_pay1 (F := Ideal) x j = pooled3 Y (e j) := by
  obtain ⟨g, r, c, rfl⟩ : ∃ (g : Fin 4) (r c : Fin 512), j = ix3 g r c := ⟨j 0, j 1, j 2, eq_ix3 j⟩
  rw [pay_apply]
  unfold pooled3
  obtain ⟨e0, e1, e2⟩ := he (ix3 g r c)
  have e1' : (e (ix3 g r c) 1).val = r.val := e1
  have e2' : (e (ix3 g r c) 2).val = c.val := e2
  rw [e1', e2']
  refine congrFun (congrFun (congrArg (fold9 min) ?_) _) _
  funext r' c'
  apply bordered_congr
  intro r'' c''
  rw [hx]
  congr 1
  funext a
  apply Fin.ext
  obtain ⟨f0, f1, f2⟩ := he (ix3 g r'' c'')
  match a with
  | ⟨0, _⟩ => show (e (ix3 g r'' c'') 0).val = (e (ix3 g r c) 0).val; rw [f0, e0]
  | ⟨1, _⟩ => exact f1
  | ⟨2, _⟩ => exact f2

end Cert.KernelIdeal.MinValue

end
-- ==== Proof.KernelValue.lean ====
/-
  What the kernel's result buffer holds after the run, as one function of the argument array.

  @main reshapes the [8, 64, 512, 512] argument to 512 images, runs the kernel over 128 grid points — point t
  stages images 4 t … 4 t + 3 of the input, and writes back, as images 4 t … 4 t + 3 of the output, the body's
  payload of them —, and reshapes the 512 output images back. Input and output window move together and never
  leave the image axes' origin, so what point t writes back is the band 4 t … 4 t + 3 of ONE array, the pooled
  array of the reshaped argument (`flushed_eq`); the 128 bands tile the output (`cover`), so the output array
  IS that pooled array (`final`); and the result buffer is its reshape (`run`).
-/
import proofs.«126444_j77695958384786_1_alg».proof.Proof.Gen.KernelIdeal.Frame
import proofs.«126444_j77695958384786_1_alg».proof.Proof.Payload
import Idealize.ShloMosaic.Lib.Pipeline.Value
import Idealize.ShloMosaic.Lib.StableHlo.Run

set_option maxRecDepth 16384

noncomputable section

namespace Cert.KernelIdeal.MinValue

open Cert.KernelIdeal Cert.KernelIdeal.Gen Cert.MinPool
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The two index maps, decided over the 128 points: both windows are at block t on the image-number axis and
    at block 0 on the two image axes. -/
theorem idx_facts : ∀ t : Fin cfg0.N,
    win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) = t.val :=
  (by decide +kernel : ∀ t : Fin grid0.N, _)

/-- WHAT POINT t WRITES BACK is band t of the pooled array of the input array as the region finds it. -/
theorem flushed_eq (c : Dev nD) (t : Fin cfg0.N) :
    (dats m 0 c).flushed 1 t = ((cfg0.win 1).blk t).view.read (Elt Ideal) (pooled3 (V m c main_v0)) := by
  show (cfg0.win 1).cut (grid0.coords t) ((dats m 0 c).after 1 t) = _
  rw [after0_1]
  unfold out0_1
  rw [View.canon_unit_zero hz]
  simp only [View.ld_unit_zero (S := S4x512x512) hz]
  obtain ⟨i0, i1, i2, i3, i4, i5⟩ := idx_facts t
  funext j
  show k0_pay1 (F := Ideal) (fun y => V m c main_v0 (((cfg0.win 0).blk t).view.emb y)) j
    = pooled3 (V m c main_v0) (((cfg0.win 1).blk t).view.emb j)
  refine pay_block (V m c main_v0) _ (fun y => ((cfg0.win 1).blk t).view.emb y) (win0_1.index t (0 : Fin 3))
    (fun y => ⟨?_, ?_, ?_⟩) (fun y => ?_) j
  · show win0_1.index t (0 : Fin 3) * 4 + 1 * (y 0).val = win0_1.index t (0 : Fin 3) * 4 + 1 * (y 0).val
    rfl
  · show win0_1.index t (1 : Fin 3) * 512 + 1 * (y 1).val = (y 1).val
    omega
  · show win0_1.index t (2 : Fin 3) * 512 + 1 * (y 2).val = (y 2).val
    omega
  · show V m c main_v0 (((cfg0.win 0).blk t).view.emb y) = V m c main_v0 (((cfg0.win 1).blk t).view.emb y)
    have hemb : ((cfg0.win 0).blk t).view.emb y = ((cfg0.win 1).blk t).view.emb y := by
      funext a
      apply Fin.ext
      match a with
      | ⟨0, _⟩ => show win0_0.index t (0 : Fin 3) * 4 + 1 * (y 0).val = win0_1.index t (0 : Fin 3) * 4 + 1 * (y 0).val; omega
      | ⟨1, _⟩ => show win0_0.index t (1 : Fin 3) * 512 + 1 * (y 1).val = win0_1.index t (1 : Fin 3) * 512 + 1 * (y 1).val; omega
      | ⟨2, _⟩ => show win0_0.index t (2 : Fin 3) * 512 + 1 * (y 2).val = win0_1.index t (2 : Fin 3) * 512 + 1 * (y 2).val; omega
    rw [hemb]

/-- An index of the output array is in point t's block iff each coordinate is in the block's range on its axis. -/
theorem mem_blk (t : Fin cfg0.N) (i : S512x512x512.Idx) :
    i ∈ ((cfg0.win 1).blk t).view.set ↔ ∀ a : Fin 3, win0_1.index t a * S4x512x512.size a ≤ (i a).val
      ∧ (i a).val < win0_1.index t a * S4x512x512.size a + S4x512x512.size a := by
  show i ∈ ((View.whole main_v1).slice (win0_1.rect t)).set ↔ _
  rw [View.set_slice_whole, Rect.mem_set_unit]
  exact Iff.rfl

/-- Image n of the output is in the band of point n / 4: the 128 bands of four images tile the 512. -/
theorem cover (i : S512x512x512.Idx) :
    ∃ t : Fin cfg0.N, (cfg0.win 1).flush t = true ∧ i ∈ ((cfg0.win 1).blk t).view.set := by
  have hi0 : (i 0).val < 512 := (i 0).isLt
  have hi1 : (i 1).val < 512 := (i 1).isLt
  have hi2 : (i 2).val < 512 := (i 2).isLt
  have hN : (i 0).val / 4 < cfg0.N := by show (i 0).val / 4 < grid0.N; rw [N_0]; omega
  obtain ⟨i0, i1, i2, i3, i4, i5⟩ := idx_facts ⟨(i 0).val / 4, hN⟩
  have i5' : win0_1.index ⟨(i 0).val / 4, hN⟩ (0 : Fin 3) = (i 0).val / 4 := i5
  refine ⟨⟨(i 0).val / 4, hN⟩, flush0_1 _, ?_⟩
  rw [mem_blk]
  intro a
  match a with
  | ⟨0, _⟩ =>
    show win0_1.index ⟨(i 0).val / 4, hN⟩ (0 : Fin 3) * 4 ≤ (i 0).val
      ∧ (i 0).val < win0_1.index ⟨(i 0).val / 4, hN⟩ (0 : Fin 3) * 4 + 4
    omega
  | ⟨1, _⟩ =>
    show win0_1.index ⟨(i 0).val / 4, hN⟩ (1 : Fin 3) * 512 ≤ (i 1).val
      ∧ (i 1).val < win0_1.index ⟨(i 0).val / 4, hN⟩ (1 : Fin 3) * 512 + 512
    omega
  | ⟨2, _⟩ =>
    show win0_1.index ⟨(i 0).val / 4, hN⟩ (2 : Fin 3) * 512 ≤ (i 2).val
      ∧ (i 2).val < win0_1.index ⟨(i 0).val / 4, hN⟩ (2 : Fin 3) * 512 + 512
    omega

/-- THE OUTPUT ARRAY after the run is the pooled array of the input array as the region finds it. -/
theorem final (c : Dev nD) : (dats m 0 c).arrAt 1 cfg0.N = pooled3 (V m c main_v0) :=
  (dats m 0 c).arrAt_eq_of_cover 1 (pooled3 (V m c main_v0)) (fun t _ => flushed_eq m c t) (fun i => cover i)

/-- The region finds, as its input array, the argument reshaped to 512 images. -/
theorem V_main_v0 (c : Dev nD) :
    (V m c main_v0 : S512x512x512.Idx → EReal)
      = shapeCast S512x512x512 (m ((c : Thread nD τ).loc main_arg0)) shapeCasts_S8x64x512x512_S512x512x512 := by
  show StableHlo.after hostOps0 (fun b => m (c, b)) (Proc.devRef .tc main_v0) = _
  after_results
  rfl

/-- After the region's exit the one remaining line reshapes the output array into the result buffer. -/
theorem tail_main_v2 (c : Dev nD) :
    Pipeline.afterTail₀ cfgs (dats m) 0 (V0 m) [hostOps1] c main_v2
      = shapeCast S8x64x512x512 (pooled3 (V m c main_v0)) shapeCasts_S512x512x512_S8x64x512x512 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = pooled3 (V m c main_v0) :=
    (Pipeline.withArrays_arr spec0 launch0.win.arr_inj c _ _ 1).trans (final m c)
  rw [e]
  rfl

/-- THE RUN, read: every weakly fair execution of @main terminates with the result buffer at the reshape of the
    pooled array of the reshaped argument, and the argument as launched. -/
theorem run : θ_run defs (onTc (τ := τ) (main (F := Ideal))) ⟨m, fun _ => 0, ρ⟩ fun r => ∀ c : Dev nD,
      r.2.mem ((c : Thread nD τ).loc main_v2)
        = shapeCast S8x64x512x512
            (pooled3 (shapeCast S512x512x512 (m ((c : Thread nD τ).loc main_arg0)) shapeCasts_S8x64x512x512_S512x512x512))
            shapeCasts_S512x512x512_S8x64x512x512
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans
          ((tail_main_v2 m c).trans (by rw [V_main_v0])),
        ((h c).2 main_arg0 (Pipeline.mem_restRefs_of main_arg0 (by decide) (by decide))).trans (W_main_arg0 m (dats m) c)⟩)
    (run_main m ρ)

end Cert.KernelIdeal.MinValue

end
-- ==== Proof.HostWindow.lean ====
/-
  The reference's two host operations read at an index.

  `stablehlo.pad` of an [8, 64, 512, 512] array by one entry low and high on the two image axes is, image by
  image, the bordered plane of `Plane.lean`; and `stablehlo.reduce_window` with a [1, 1, 3, 3] window, unit
  strides and no padding, at (b, ch, r, c), is the body folded from the initial value over the nine entries
  (r + dr, c + dc) of image (b, ch) of its operand, rows first.
-/
import Idealize.ShloMosaic.Lib.Pipeline.Value
import Idealize.ShloMosaic.Lib.ValueIdx
import proofs.«126444_j77695958384786_1_alg».proof.Proof.Plane

namespace Cert.MinPool

open Idealize.ShloMosaic Idealize.ShloMosaic.ValueIdx

variable {α : Type}

/-- The argument's shape, the padded shape, the rank-zero shape of a scalar operand, and the window. -/
abbrev A4 : Shape := ⟨4, ![8, 64, 512, 512]⟩
abbrev A4p : Shape := ⟨4, ![8, 64, 514, 514]⟩
abbrev S0 : Shape := ⟨0, ![]⟩
abbrev W33 : Shape := ⟨4, ![1, 1, 3, 3]⟩

/-- The padded array at (b, ch, r, c) is the bordered plane of image (b, ch) at (r, c), the border the padding
    operand's one element: the pad's condition on the first two axes always holds (nothing is added there), and
    on the image axes it says the coordinate less one is a coordinate of the image. -/
theorem pad_apply (X : A4.Idx → α) (v : S0.Idx → α) (h : A4.Pads ![0, 0, 1, 1] ![0, 0, 1, 1] ![0, 0, 0, 0] A4p)
    (hu : 0 < S0.numel) (b : Fin 8) (ch : Fin 64) (r c : Fin 514) :
    pad A4p ![0, 0, 1, 1] ![0, 0, 1, 1] ![0, 0, 0, 0] X v h hu (ix4 b ch r c)
      = bordered (v (Shape.Idx.first hu)) (fun r' c' => X (ix4 b ch r' c')) r.val c.val := by
  unfold pad
  split
  · next hin =>
    have h2 := hin ⟨2, by decide⟩
    have h3 := hin ⟨3, by decide⟩
    replace h2 : 1 ≤ r.val ∧ (r.val - 1) % 1 = 0 ∧ (r.val - 1) / 1 < 512 := h2
    replace h3 : 1 ≤ c.val ∧ (c.val - 1) % 1 = 0 ∧ (c.val - 1) / 1 < 512 := h3
    unfold bordered
    rw [dif_pos (by omega)]
    congr 1
    funext a
    apply Fin.ext
    match a with
    | ⟨0, _⟩ => exact Nat.div_one _
    | ⟨1, _⟩ => exact Nat.div_one _
    | ⟨2, _⟩ => exact Nat.div_one _
    | ⟨3, _⟩ => exact Nat.div_one _
  · next hin =>
    unfold bordered
    rw [dif_neg]
    intro hc
    apply hin
    intro a
    match a with
    | ⟨0, _⟩ => show 0 ≤ b.val ∧ (b.val - 0) % 1 = 0 ∧ (b.val - 0) / 1 < 8; have := b.isLt; omega
    | ⟨1, _⟩ => show 0 ≤ ch.val ∧ (ch.val - 0) % 1 = 0 ∧ (ch.val - 0) / 1 < 64; have := ch.isLt; omega
    | ⟨2, _⟩ => show 1 ≤ r.val ∧ (r.val - 1) % 1 = 0 ∧ (r.val - 1) / 1 < 512; omega
    | ⟨3, _⟩ => show 1 ≤ c.val ∧ (c.val - 1) % 1 = 0 ∧ (c.val - 1) / 1 < 512; omega

/-- Position `n` of the window in row-major order is (0, 0, n / 3, n % 3). -/
theorem window_position : ∀ n : Fin W33.numel, (W33.rowMajor.symm n 0).val = 0 ∧ (W33.rowMajor.symm n 1).val = 0
    ∧ (W33.rowMajor.symm n 2).val = n.val / 3 ∧ (W33.rowMajor.symm n 3).val = n.val % 3 := by decide

theorem window_numel : W33.numel = 9 := by decide

/-- The window reduction at (b, ch, r, c) of an operand whose image (b, ch) is the plane `P`: every one of the
    nine positions is inside the operand (r + 2 and c + 2 are below 514), so no position reads the initial value in
    an entry's place, and the fold over the positions in row-major order is `fold9From`. -/
theorem window_apply (f : α → α → α) (x : A4p.Idx → α) (init : S0.Idx → α)
    (h : A4p.ReduceWindows ![1, 1, 3, 3] ![1, 1, 1, 1] ![0, 0, 0, 0] ![0, 0, 0, 0] A4) (hu : 0 < S0.numel)
    (b : Fin 8) (ch : Fin 64) (P : ℕ → ℕ → α) (hx : ∀ r' c' : Fin 514, x (ix4 b ch r' c') = P r'.val c'.val)
    (r c : Fin 512) :
    Host.reduceWindow f ![1, 1, 3, 3] ![1, 1, 1, 1] ![0, 0, 0, 0] ![0, 0, 0, 0] x init h hu (ix4 b ch r c)
      = fold9From f (init (Shape.Idx.first hu)) P r.val c.val := by
  unfold Host.reduceWindow
  dsimp only
  refine (List.foldl_ext _ (fun acc (n : Fin W33.numel) => f acc (P (r.val + n.val / 3) (c.val + n.val % 3))) _
    (fun acc n _ => congrArg (f acc) ?_)).trans ?_
  · obtain ⟨u0, u1, u2, u3⟩ := window_position n
    have hn : n.val < 9 := window_numel ▸ n.isLt
    split
    · next hin =>
      rw [← hx ⟨r.val + n.val / 3, by omega⟩ ⟨c.val + n.val % 3, by omega⟩]
      congr 1
      funext a
      apply Fin.ext
      match a with
      | ⟨0, _⟩ => show b.val * 1 + (W33.rowMajor.symm n 0).val - 0 = b.val; omega
      | ⟨1, _⟩ => show ch.val * 1 + (W33.rowMajor.symm n 1).val - 0 = ch.val; omega
      | ⟨2, _⟩ => show r.val * 1 + (W33.rowMajor.symm n 2).val - 0 = r.val + n.val / 3; omega
      | ⟨3, _⟩ => show c.val * 1 + (W33.rowMajor.symm n 3).val - 0 = c.val + n.val % 3; omega
    · next hin =>
      exfalso
      apply hin
      intro a
      match a with
      | ⟨0, _⟩ => show 0 ≤ b.val * 1 + (W33.rowMajor.symm n 0).val ∧ b.val * 1 + (W33.rowMajor.symm n 0).val - 0 < 8; have := b.isLt; omega
      | ⟨1, _⟩ => show 0 ≤ ch.val * 1 + (W33.rowMajor.symm n 1).val ∧ ch.val * 1 + (W33.rowMajor.symm n 1).val - 0 < 64; have := ch.isLt; omega
      | ⟨2, _⟩ => show 0 ≤ r.val * 1 + (W33.rowMajor.symm n 2).val ∧ r.val * 1 + (W33.rowMajor.symm n 2).val - 0 < 514; have := r.isLt; omega
      | ⟨3, _⟩ => show 0 ≤ c.val * 1 + (W33.rowMajor.symm n 3).val ∧ c.val * 1 + (W33.rowMajor.symm n 3).val - 0 < 514; have := c.isLt; omega
  · rfl

end Cert.MinPool
-- ==== Proof.RefValue.lean ====
/-
  The reference's result read at an index.

  The reference pads the argument with the zero word by one entry around every image and reduces 3 × 3 windows
  of the padded array with `min` from the word of +∞. At (b, ch, r, c) that is `min` folded from ⊤ over the
  window at (r, c) of the bordered plane of image (b, ch); ⊤ is absorbed by the window's first entry, so it is the
  fold that starts at that entry.
-/
import proofs.«126444_j77695958384786_1_alg».proof.Proof.Gen.ReferenceIdeal.Read
import proofs.«126444_j77695958384786_1_alg».proof.Proof.HostWindow
import Idealize.ShloMosaic.PureOps.Ideal
import Idealize.ShloMosaic.Lib.ValueIdx
import Idealize.ShloMosaic.Lib.Pipeline.Value

noncomputable section

namespace Cert.ReferenceIdeal.MinValue

open Cert.ReferenceIdeal Cert.ReferenceIdeal.Gen Cert.MinPool
open Idealize.ShloMosaic Idealize.ShloMosaic.ValueIdx

/-- The reduction's initial word denotes +∞. -/
theorem ofBits_inf : Ideal.ofBits .f32 0x7F800000#32 = (⊤ : EReal) := by simp [Ideal.ofBits, Ideal.ieee]

/-- The reference's result at (b, ch, r, c). -/
theorem ref_apply (X : S8x64x512x512.Idx → EReal) (b : Fin 8) (ch : Fin 64) (r c : Fin 512) :
    Read.val_main_v1 (F := Ideal) X (ix4 b ch r c)
      = fold9 min (bordered (Ideal.ofBits .f32 0x00000000#32) (fun r' c' => X (ix4 b ch r' c'))) r.val c.val := by
  unfold Read.val_main_v1
  refine (window_apply FloatOps.minimumf _ _ _ _ b ch
    (bordered (Ideal.ofBits .f32 0x00000000#32) (fun r' c' => X (ix4 b ch r' c'))) (fun r' c' => ?_) r c).trans ?_
  · unfold Read.val_main_v0
    exact pad_apply X _ _ _ b ch r' c'
  · refine fold9From_eq (α := EReal) min _ _ _ _ ?_
    show min (Ideal.ofBits .f32 0x7F800000#32) _ = _
    rw [ofBits_inf]
    exact min_top_left _

end Cert.ReferenceIdeal.MinValue

end
-- ==== Proof.Bridge.lean ====
/-
  The kernel's result and the reference's are one function of the argument.

  The kernel works on the argument reshaped to 512 images and reshapes its pooled array back; row-major order
  puts image (b, ch) of the [8, 64, 512, 512] array at image 64 b + ch of the [512, 512, 512] one, rows and
  columns unchanged. So the kernel's result at (b, ch, r, c) is the minimum over the 3 × 3 window at (r, c) of
  the bordered plane of the argument's image (b, ch) — which is what the reference's window reduction of the padded
  argument is there.
-/
import proofs.«126444_j77695958384786_1_alg».proof.Proof.Payload
import proofs.«126444_j77695958384786_1_alg».proof.Proof.RefValue

noncomputable section

namespace Cert.Proof.MinBridge

open Cert.MinPool Cert.KernelIdeal.MinValue
open Idealize.ShloMosaic Idealize.ShloMosaic.ValueIdx

/-- The 512 images as one array. -/
abbrev I3 : Shape := ⟨3, ![512, 512, 512]⟩

/-- Image 64 b + ch of the reshaped array is image (b, ch) of the argument. -/
theorem reshape_in (X : A4.Idx → EReal) (h : A4.ShapeCasts I3) (b : Fin 8) (ch : Fin 64) (r c : Fin 512) :
    shapeCast I3 X h (ix3 (⟨b.val * 64 + ch.val, by have := b.isLt; have := ch.isLt; omega⟩ : Fin 512) r c)
      = X (ix4 b ch r c) :=
  shapeCast_apply X h _ _ (by rw [Shape.rowMajor_val_four, Shape.rowMajor_val_three]; rfl)

/-- The kernel's result at (b, ch, r, c). -/
theorem kernel_apply (X : A4.Idx → EReal) (h1 : A4.ShapeCasts I3) (h2 : I3.ShapeCasts A4)
    (b : Fin 8) (ch : Fin 64) (r c : Fin 512) :
    shapeCast A4 (pooled3 (shapeCast I3 X h1)) h2 (ix4 b ch r c)
      = fold9 min (bordered zeroWord (fun r' c' => X (ix4 b ch r' c'))) r.val c.val := by
  rw [shapeCast_apply _ h2 (ix4 b ch r c)
    (ix3 (⟨b.val * 64 + ch.val, by have := b.isLt; have := ch.isLt; omega⟩ : Fin 512) r c)
    (by rw [Shape.rowMajor_val_four, Shape.rowMajor_val_three]; rfl)]
  unfold pooled3
  refine congrFun (congrFun (congrArg (fold9 min) ?_) _) _
  funext r' c'
  exact bordered_congr _ (fun r'' c'' => reshape_in X h1 b ch r'' c'') r' c'

/-- The two results are equal, entry by entry. -/
theorem results_eq (X : A4.Idx → EReal) (h1 : A4.ShapeCasts I3) (h2 : I3.ShapeCasts A4) :
    shapeCast A4 (pooled3 (shapeCast I3 X h1)) h2 = Cert.ReferenceIdeal.Read.val_main_v1 (F := Ideal) X := by
  funext i
  obtain ⟨b, ch, r, c, rfl⟩ : ∃ (b : Fin 8) (ch : Fin 64) (r c : Fin 512), i = ix4 b ch r c :=
    ⟨i 0, i 1, i 2, i 3, eq_ix4 i⟩
  rw [kernel_apply, Cert.ReferenceIdeal.MinValue.ref_apply]

end Cert.Proof.MinBridge

end
-- ==== Proof.lean ====
/-
  3 × 3 minimum pooling with a border of zeros, stride one: a kernel against its reference.

  For an argument of 8 × 64 images of 512 × 512 entries, both programs return, at (b, ch, r, c), the minimum of
  the nine entries (r + dr, c + dc), dr, dc ∈ {0, 1, 2}, of image (b, ch) surrounded by one ring of zeros.
  The kernel reshapes the argument to 512 images and visits them four at a time: it borders the four images
  with zeros by two concatenations, takes the nine shifted 512 × 512 slices of the bordered block and chains
  eight elementwise minima; the 128 blocks tile the output, which is reshaped back. The reference pads the
  argument with the same zero word and reduces 3 × 3 windows with `min` from +∞.

  At the ideal instance `min` is the minimum of extended reals, so the two results are equal entry by entry with
  no condition on the entries: the reference's fold starts from ⊤, which the window's first entry absorbs, and
  from there both take the nine entries in the same row-major order (`MinBridge.results_eq`; the reshape puts image
  (b, ch) at image 64 b + ch). The precondition is never opened. Nothing was rewritten by the ideal pass, so
  `preserves` is `True`. The kernel's two frames are the generated ones; the reference's is its generated run with
  the result dropped.
-/
import proofs.«126444_j77695958384786_1_alg».proof.Defs
import proofs.«126444_j77695958384786_1_alg».proof.Proof.Gen.Kernel
import proofs.«126444_j77695958384786_1_alg».proof.Proof.Gen.Kernel.Skeleton
import proofs.«126444_j77695958384786_1_alg».proof.Proof.Gen.Kernel.Launch
import proofs.«126444_j77695958384786_1_alg».proof.Proof.Gen.Kernel.Points
import proofs.«126444_j77695958384786_1_alg».proof.Proof.Gen.Kernel.Frame
import proofs.«126444_j77695958384786_1_alg».proof.Proof.Gen.KernelIdeal
import proofs.«126444_j77695958384786_1_alg».proof.Proof.Gen.KernelIdeal.Skeleton
import proofs.«126444_j77695958384786_1_alg».proof.Proof.Gen.KernelIdeal.Launch
import proofs.«126444_j77695958384786_1_alg».proof.Proof.Gen.KernelIdeal.Points
import proofs.«126444_j77695958384786_1_alg».proof.Proof.Gen.KernelIdeal.Frame
import proofs.«126444_j77695958384786_1_alg».proof.Proof.Gen.ReferenceIdeal
import proofs.«126444_j77695958384786_1_alg».proof.Proof.Gen.Pre_finite_inputs
import proofs.«126444_j77695958384786_1_alg».proof.Proof.Gen.ReferenceIdeal.Run
import proofs.«126444_j77695958384786_1_alg».proof.Proof.Gen.ReferenceIdeal.Read
import proofs.«126444_j77695958384786_1_alg».proof.Proof.KernelValue
import proofs.«126444_j77695958384786_1_alg».proof.Proof.Bridge
import Idealize.ShloMosaic.Adequacy
import Idealize.ShloMosaic.Init

noncomputable section

namespace Cert.Proof

open Idealize.ShloMosaic Idealize.SL.Sem

/-- The word-level kernel runs and keeps its argument. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is five host operations: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From arguments that agree, the kernel ends with the pooled images reshaped back and the reference with the
    window reduction of the padded argument: the same array. -/
theorem algebraic : Cert.algebraic_KernelIdeal_ReferenceIdeal := by
  intro m ρ m' ρ' _ hagree
  refine ⟨_, Cert.KernelIdeal.MinValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, hagree c]
  exact (Cert.Proof.MinBridge.results_eq _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
